-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S8192x8192 : Shape := ⟨2, ![8192, 8192]⟩
abbrev S1024x1024 : Shape := ⟨2, ![1024, 1024]⟩
abbrev S512x1024 : Shape := ⟨2, ![512, 1024]⟩
abbrev S1024x512 : Shape := ⟨2, ![1024, 512]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1x512 : Shape := ⟨2, ![1, 512]⟩

abbrev nBuf : Space → Nat
  | .hbm => 2
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  reduces_S1024x1024_S1024 : S1024x1024.Reduces [1] S1024
  shapeCasts_S1024_S1024x1 : S1024.ShapeCasts S1024x1
  reduces_S512x1024_S512 : S512x1024.Reduces [1] S512
  shapeCasts_S512_S512x1 : S512.ShapeCasts S512x1
  transposes_S512x1_p1_0_S1x512 : S512x1.Transposes [1, 0] S1x512
  bitsLt_bf16_f32 : FTy.bits .bf16 < FTy.bits .f32
  transposes_S512x1024_p1_0_S1024x512 : S512x1024.Transposes [1, 0] S1024x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x8192.size a
  hwx0_2 : ∀ i : grid0.Coords, EltTy.bits .f32 = 32 ∨ (Rect.block (s := S8192x8192) S1024x512.size (cc0_transform_2 i) (hinb0_2 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S1024x8192 : Shape := ⟨2, ![1024, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192, .f32⟩
  | .hbm, ⟨4, _⟩ => ⟨S1024x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  transposes_S8192x1024_S1024x8192_1_0 : S8192x1024.Transposes [1, 0] S1024x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.TilesBits.lean ====
/-
  The run of the pairwise-distance kernel, at any float instance.

  One pallas_call on the grid 8 × 16: at the point (i, j) it is handed the row block i of the feature array
  (1024 rows, through the first operand window) and the row block j of the SAME array (512 rows, through the
  second), and stores the 1024 × 512 tile (i, j) of the distance matrix.  Both input windows stage blocks of one
  array in HBM, so the array is not held whole by either: each window holds it at one HALF of the full share, which
  is all a window that only reads needs, and the halves are joined again when the region exits.  The result array
  is held whole by its one window.

  What follows: the contents of the arrays as the region finds them, the blocks a point is handed, the tile the
  body stores (its one payload over the two loaded blocks), the body's triple, the proof data for the pipeline
  rule, how the launch's whole arrays become the two halves and the whole result (the split), and the run itself:
  every weakly fair execution ends, the feature array is unchanged and the result array holds what the write-backs
  left in it.
-/
import proofs.«141768_j41790031790867_1_alg».proof.Proof.Gen.Kernel.Launch
import proofs.«141768_j41790031790867_1_alg».proof.Proof.Gen.Kernel.Skeleton
import proofs.«141768_j41790031790867_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the blocks a point is handed -/

/-- @main is the region alone, so the region finds every array as launched. -/
abbrev V (c : Dev nD) (b : Ref sig .tc) : Buf (Elt F) ((c : Thread nD τ).loc b) := m ((c : Thread nD τ).loc b)

/-- @main up to the region: nothing runs before it. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The block of window `w`'s array that point `t` is handed. -/
def blockAt (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- An input window's staging buffer holds the point's block whether the pipeline fetched at that point or kept the
    buffer from the point before (the block index had not moved), for any proof data over these arrays whose body
    leaves the input blocks in place. -/
theorem found_rows {c : Dev nD} (dat : Dat τ (Elt F) Unit ℕ (UR sig nD τ) ℕ cfg0 c)
    (hA : dat.A 0 = V m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

theorem found_cols {c : Dev nD} (dat : Dat τ (Elt F) Unit ℕ (UR sig nD τ) ℕ cfg0 c)
    (hA : dat.A 1 = V m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)

/-! ## The tile the body stores -/

abbrev rRows : Rect S1024x1024 := Rect.unit (s := S1024x1024) ![0, 0] S1024x1024.size inb_S1024x1024_S1024x1024_0_0
abbrev rCols : Rect S512x1024 := Rect.unit (s := S512x1024) ![0, 0] S512x1024.size inb_S512x1024_S512x1024_0_0
abbrev rTile : Rect S1024x512 := Rect.unit (s := S1024x512) ![0, 0] S1024x512.size inb_S1024x512_S1024x512_0_0

/-- The result window's staging buffer after the body: its one store, of the payload over the two loaded blocks,
    through the whole-buffer rectangle. -/
def tile (a : Vec F S1024x1024 .f32) (b : Vec F S512x1024 .f32) : Vec F S1024x512 .f32 :=
  View.canon [⟨rTile, k0_pay1 (View.ld a rRows) (View.ld b rCols)⟩]

/-- That one rectangle is the whole buffer. -/
theorem tile_cover (p0 : Vec F S1024x512 .f32) (y : S1024x512.Idx) :
    ∃ pc ∈ ([⟨rTile, p0⟩] : List (View.Piece (Elt F) S1024x512 .f32)), y ∈ pc.1.set :=
  View.cover_of_tiled [⟨rTile, p0⟩] S1024x512.size (by rfl) y

/-! ## The body's triple -/

set_option maxHeartbeats 1000000 in
/-- On whole staging memrefs — the inputs' at contents `a`, `b`, the result's at anything — the body runs to its end
    leaving the inputs' as they were and the result's at `tile a b`. -/
theorem body_triple (c : Dev nD) (E : Set ℕ) (i : grid0.Coords)
    (arg2 : Memref sig .tc .vmem S1024x1024 .f32) (harg2 : arg2.IsWhole)
    (arg3 : Memref sig .tc .vmem S512x1024 .f32) (harg3 : arg3.IsWhole)
    (arg4 : Memref sig .tc .vmem S1024x512 .f32) (harg4 : arg4.IsWhole)
    (a : Vec F S1024x1024 .f32) (b : Vec F S512x1024 .f32) (K : PUnit → sProp 𝕄) :
    iprop(owns (c : Thread nD τ) arg2 fullShare a ∗ owns (c : Thread nD τ) arg3 fullShare b ∗ (∃ d, owns (c : Thread nD τ) arg4 fullShare d)
        ∗ (iprop(owns (c : Thread nD τ) arg2 fullShare a ∗ owns (c : Thread nD τ) arg3 fullShare b ∗ owns (c : Thread nD τ) arg4 fullShare (tile a b)) -∗ K ⟨⟩))
      ⊢ wp frame (wpE (defs₀ (F := F)) Variants.none c none) E (cc0__sim_kernel i arg2 harg2 arg3 harg3 arg4 harg4) K := by
  simp only [cc0__sim_kernel_eq_skeleton]; unfold cc0__sim_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

end Cert.Kernel.Tiles

end
-- ==== Proof.SharedRunBits.lean ====
/-
  The pipeline's proof data for the pairwise-distance kernel, and its run.

  The feature array is staged by TWO input windows (row block i and row block j).  The proof data therefore lends
  the first window the LEFT half of the array's full share and the second the RIGHT half; the result array is held
  whole.  The launch deals the core each distinct buffer whole, once; `split` cuts the feature array's points-to
  along the share into the two halves the windows hold.  The kernel names no scratch and no semaphore and draws no
  random bits, so its invariant between points is just the core's idle scoped buffers.
-/
import proofs.«141768_j41790031790867_1_alg».proof.Proof.TilesBits

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The arrays as the region finds them; after the body at point `t` each input buffer still at its block and the
    result buffer at the tile of the two blocks; between points the idle scoped buffers; the feature array lent to
    its two windows by halves; nothing owed. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => tile (blockAt m c 0 t) (blockAt m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = blockAt m c 0 t := by dsimp only [dats]
theorem after_cols (c : Dev nD) (t : Fin cfg0.N) : (dats m 0 c).after 1 t = blockAt m c 1 t := by dsimp only [dats]
theorem after_tile (c : Dev nD) (t : Fin cfg0.N) :
    (dats m 0 c).after 2 t = tile (blockAt m c 0 t) (blockAt m c 1 t) := by dsimp only [dats]

theorem before_rows (c : Dev nD) (t : Fin cfg0.N) (d) : (dats m 0 c).before 0 t d = blockAt m c 0 t :=
  found_rows m (dats m 0 c) (A_eq m c 0) (after_rows m c) t d
theorem before_cols (c : Dev nD) (t : Fin cfg0.N) (d) : (dats m 0 c).before 1 t d = blockAt m c 1 t :=
  found_cols m (dats m 0 c) (A_eq m c 1) (after_cols m c) t d

/-! ## The body obligation -/

/-- At every point: the input buffers hold the point's two blocks, so the body's triple applies; the invariant and
    what the core owes pass through unread. -/
theorem body_obligation (c : Dev nD) :
    BodyObligation (dats (F := F) m 0 c) (defs₀ (F := F)) Variants.none () Set.univ := fun t => by
  rw [bigSep_W0, bigSep_W0]
  show iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)))
  unfold bodyAt0
  simp only [before_rows, before_cols]
  rw [show (dats m 0 c).Φ t.succ = (dats m 0 c).Φ t.castSucc from rfl,
    show (dats m 0 c).owesAt () t.succ = (dats m 0 c).owesAt () t.castSucc from rfl,
    after_rows, after_cols, after_tile]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-! ## From the launch's whole arrays to the windows' shares -/

/-- The windows stage two distinct arrays: the features and the result. -/
theorem arrays_are : Finset.univ.image (Pipeline.arrRef spec0) = {main_arg0, main_v0} := by decide

/-- The launch holds each of the two arrays whole.  The feature array's points-to is cut along the share: its left
    half is what the row-block window holds, its right half what the column-block window holds; the result array
    goes to its window whole. -/
theorem split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, arrays_are, BI.bigSep_insert (by decide), BI.bigSep_singleton]
  have e0 : (cfg0.win 0).arr.view.set = Finset.univ := (arr_whole0 0).set_eq_univ
  have e2 : (cfg0.win 2).arr.view.set = Finset.univ := (arr_whole0 2).set_eq_univ
  rw [e0, e2]
  have h0 : (dats m 0 c).share 0 = fullShare.left := rfl
  have h1 : (dats m 0 c).share 1 = fullShare.right := rfl
  have h2 : (dats m 0 c).share 2 = fullShare := rfl
  rw [h0, h1, h2]
  show iprop(((c.tc : Thread nD τ).loc main_arg0 ↦{fullShare} V m c main_arg0) ∗ ((c.tc : Thread nD τ).loc main_v0 ↦{fullShare} V m c main_v0))
    ⊢ iprop(((c.tc : Thread nD τ).loc main_arg0 ↦{fullShare.left} V m c main_arg0) ∗ ((c.tc : Thread nD τ).loc main_arg0 ↦{fullShare.right} V m c main_arg0)
        ∗ ((c.tc : Thread nD τ).loc main_v0 ↦{fullShare} V m c main_v0))
  iintro ⟨Ha, Hv⟩
  ihave H := (pointsTo_share (PosShare.mem_left_op_right fullShare)).1 $$ Ha
  icases H with ⟨Hl, Hr⟩
  isplitl [Hl]; · iexact Hl
  isplitl [Hr]; · iexact Hr
  iexact Hv

/-! ## The run -/

/-- Between points the kernel keeps nothing: the invariant is the core's idle scoped buffers, at every point. -/
theorem Phi_eq (c : Dev nD) (t : Fin (cfg0.N + 1)) :
    (dats m 0 c).Φ t = Pipeline.scopedRest (Ix := Unit) (Name := ℕ) (U := UR sig nD τ) (Lvl := ℕ) (Val := Elt F) spec0 c := rfl

set_option backward.isDefEq.respectTransparency.types false in
/-- From any memory with every semaphore at zero, every weakly fair execution of @main ends without a fault, and at
    the end each window's array holds what the pipeline rule computes from the proof data: an input array its
    contents at entry, the result array those overwritten by the tile each point wrote back. -/
theorem run_main :
    θ_run defs (onTc (τ := τ) (main (F := F))) ⟨m, fun _ => 0, ρ⟩
      (fun r => ∀ c : Dev nD, ∀ w, r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := split m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [Phi_eq m c 0]; iintro ⟨-, H⟩; iexact H)
    (hout := fun c => by rw [Phi_eq m c (Fin.last _)]; iintro H; isplitr; · iempintro
                         iexact H)
    (QY := fun _ _ => True)
    (hY := fun c s' => by iintro ⟨-, -, HSI⟩; imodintro; isplitr; · ipureintro; trivial
                          iexact HSI)
    (hQ := fun s h c w => (h c).1 w)

/-- The frame: the run ends with the feature array as launched (an input array is never written). -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans ((dats m 0 c).arrAt_in 0 rfl _)).trans (A_eq m c 0)) (run_main m ρ)

/-- The run with the result array named: it ends at what the write-backs of all 128 points left in it, the feature
    array as launched. -/
theorem run_result :
    θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun _ h c => ⟨h c 2, ((h c 0).trans ((dats m 0 c).arrAt_in 0 rfl _)).trans (A_eq m c 0)⟩) (run_main m ρ)

end Cert.Kernel.Tiles

end
-- ==== Proof.Tiles.lean ====
/-
  The run of the pairwise-distance kernel, at any float instance.

  One pallas_call on the grid 8 × 16: at the point (i, j) it is handed the row block i of the feature array
  (1024 rows, through the first operand window) and the row block j of the SAME array (512 rows, through the
  second), and stores the 1024 × 512 tile (i, j) of the distance matrix.  Both input windows stage blocks of one
  array in HBM, so the array is not held whole by either: each window holds it at one HALF of the full share, which
  is all a window that only reads needs, and the halves are joined again when the region exits.  The result array
  is held whole by its one window.

  What follows: the contents of the arrays as the region finds them, the blocks a point is handed, the tile the
  body stores (its one payload over the two loaded blocks), the body's triple, the proof data for the pipeline
  rule, how the launch's whole arrays become the two halves and the whole result (the split), and the run itself:
  every weakly fair execution ends, the feature array is unchanged and the result array holds what the write-backs
  left in it.
-/
import proofs.«141768_j41790031790867_1_alg».proof.Proof.Gen.KernelIdeal.Launch
import proofs.«141768_j41790031790867_1_alg».proof.Proof.Gen.KernelIdeal.Skeleton
import proofs.«141768_j41790031790867_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the blocks a point is handed -/

/-- @main is the region alone, so the region finds every array as launched. -/
abbrev V (c : Dev nD) (b : Ref sig .tc) : Buf (Elt F) ((c : Thread nD τ).loc b) := m ((c : Thread nD τ).loc b)

/-- @main up to the region: nothing runs before it. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The block of window `w`'s array that point `t` is handed. -/
def blockAt (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- An input window's staging buffer holds the point's block whether the pipeline fetched at that point or kept the
    buffer from the point before (the block index had not moved), for any proof data over these arrays whose body
    leaves the input blocks in place. -/
theorem found_rows {c : Dev nD} (dat : Dat τ (Elt F) Unit ℕ (UR sig nD τ) ℕ cfg0 c)
    (hA : dat.A 0 = V m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

theorem found_cols {c : Dev nD} (dat : Dat τ (Elt F) Unit ℕ (UR sig nD τ) ℕ cfg0 c)
    (hA : dat.A 1 = V m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)

/-! ## The tile the body stores -/

abbrev rRows : Rect S1024x1024 := Rect.unit (s := S1024x1024) ![0, 0] S1024x1024.size inb_S1024x1024_S1024x1024_0_0
abbrev rCols : Rect S512x1024 := Rect.unit (s := S512x1024) ![0, 0] S512x1024.size inb_S512x1024_S512x1024_0_0
abbrev rTile : Rect S1024x512 := Rect.unit (s := S1024x512) ![0, 0] S1024x512.size inb_S1024x512_S1024x512_0_0

/-- The result window's staging buffer after the body: its one store, of the payload over the two loaded blocks,
    through the whole-buffer rectangle. -/
def tile (a : Vec F S1024x1024 .f32) (b : Vec F S512x1024 .f32) : Vec F S1024x512 .f32 :=
  View.canon [⟨rTile, k0_pay1 (View.ld a rRows) (View.ld b rCols)⟩]

/-- That one rectangle is the whole buffer. -/
theorem tile_cover (p0 : Vec F S1024x512 .f32) (y : S1024x512.Idx) :
    ∃ pc ∈ ([⟨rTile, p0⟩] : List (View.Piece (Elt F) S1024x512 .f32)), y ∈ pc.1.set :=
  View.cover_of_tiled [⟨rTile, p0⟩] S1024x512.size (by rfl) y

/-! ## The body's triple -/

set_option maxHeartbeats 1000000 in
/-- On whole staging memrefs — the inputs' at contents `a`, `b`, the result's at anything — the body runs to its end
    leaving the inputs' as they were and the result's at `tile a b`. -/
theorem body_triple (c : Dev nD) (E : Set ℕ) (i : grid0.Coords)
    (arg2 : Memref sig .tc .vmem S1024x1024 .f32) (harg2 : arg2.IsWhole)
    (arg3 : Memref sig .tc .vmem S512x1024 .f32) (harg3 : arg3.IsWhole)
    (arg4 : Memref sig .tc .vmem S1024x512 .f32) (harg4 : arg4.IsWhole)
    (a : Vec F S1024x1024 .f32) (b : Vec F S512x1024 .f32) (K : PUnit → sProp 𝕄) :
    iprop(owns (c : Thread nD τ) arg2 fullShare a ∗ owns (c : Thread nD τ) arg3 fullShare b ∗ (∃ d, owns (c : Thread nD τ) arg4 fullShare d)
        ∗ (iprop(owns (c : Thread nD τ) arg2 fullShare a ∗ owns (c : Thread nD τ) arg3 fullShare b ∗ owns (c : Thread nD τ) arg4 fullShare (tile a b)) -∗ K ⟨⟩))
      ⊢ wp frame (wpE (defs₀ (F := F)) Variants.none c none) E (cc0__sim_kernel i arg2 harg2 arg3 harg3 arg4 harg4) K := by
  simp only [cc0__sim_kernel_eq_skeleton]; unfold cc0__sim_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

end Cert.KernelIdeal.Tiles

end
-- ==== Proof.SharedRun.lean ====
/-
  The pipeline's proof data for the pairwise-distance kernel, and its run.

  The feature array is staged by TWO input windows (row block i and row block j).  The proof data therefore lends
  the first window the LEFT half of the array's full share and the second the RIGHT half; the result array is held
  whole.  The launch deals the core each distinct buffer whole, once; `split` cuts the feature array's points-to
  along the share into the two halves the windows hold.  The kernel names no scratch and no semaphore and draws no
  random bits, so its invariant between points is just the core's idle scoped buffers.
-/
import proofs.«141768_j41790031790867_1_alg».proof.Proof.Tiles

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The arrays as the region finds them; after the body at point `t` each input buffer still at its block and the
    result buffer at the tile of the two blocks; between points the idle scoped buffers; the feature array lent to
    its two windows by halves; nothing owed. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => tile (blockAt m c 0 t) (blockAt m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = blockAt m c 0 t := by dsimp only [dats]
theorem after_cols (c : Dev nD) (t : Fin cfg0.N) : (dats m 0 c).after 1 t = blockAt m c 1 t := by dsimp only [dats]
theorem after_tile (c : Dev nD) (t : Fin cfg0.N) :
    (dats m 0 c).after 2 t = tile (blockAt m c 0 t) (blockAt m c 1 t) := by dsimp only [dats]

theorem before_rows (c : Dev nD) (t : Fin cfg0.N) (d) : (dats m 0 c).before 0 t d = blockAt m c 0 t :=
  found_rows m (dats m 0 c) (A_eq m c 0) (after_rows m c) t d
theorem before_cols (c : Dev nD) (t : Fin cfg0.N) (d) : (dats m 0 c).before 1 t d = blockAt m c 1 t :=
  found_cols m (dats m 0 c) (A_eq m c 1) (after_cols m c) t d

/-! ## The body obligation -/

/-- At every point: the input buffers hold the point's two blocks, so the body's triple applies; the invariant and
    what the core owes pass through unread. -/
theorem body_obligation (c : Dev nD) :
    BodyObligation (dats (F := F) m 0 c) (defs₀ (F := F)) Variants.none () Set.univ := fun t => by
  rw [bigSep_W0, bigSep_W0]
  show iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)))
  unfold bodyAt0
  simp only [before_rows, before_cols]
  rw [show (dats m 0 c).Φ t.succ = (dats m 0 c).Φ t.castSucc from rfl,
    show (dats m 0 c).owesAt () t.succ = (dats m 0 c).owesAt () t.castSucc from rfl,
    after_rows, after_cols, after_tile]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-! ## From the launch's whole arrays to the windows' shares -/

/-- The windows stage two distinct arrays: the features and the result. -/
theorem arrays_are : Finset.univ.image (Pipeline.arrRef spec0) = {main_arg0, main_v0} := by decide

/-- The launch holds each of the two arrays whole.  The feature array's points-to is cut along the share: its left
    half is what the row-block window holds, its right half what the column-block window holds; the result array
    goes to its window whole. -/
theorem split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, arrays_are, BI.bigSep_insert (by decide), BI.bigSep_singleton]
  have e0 : (cfg0.win 0).arr.view.set = Finset.univ := (arr_whole0 0).set_eq_univ
  have e2 : (cfg0.win 2).arr.view.set = Finset.univ := (arr_whole0 2).set_eq_univ
  rw [e0, e2]
  have h0 : (dats m 0 c).share 0 = fullShare.left := rfl
  have h1 : (dats m 0 c).share 1 = fullShare.right := rfl
  have h2 : (dats m 0 c).share 2 = fullShare := rfl
  rw [h0, h1, h2]
  show iprop(((c.tc : Thread nD τ).loc main_arg0 ↦{fullShare} V m c main_arg0) ∗ ((c.tc : Thread nD τ).loc main_v0 ↦{fullShare} V m c main_v0))
    ⊢ iprop(((c.tc : Thread nD τ).loc main_arg0 ↦{fullShare.left} V m c main_arg0) ∗ ((c.tc : Thread nD τ).loc main_arg0 ↦{fullShare.right} V m c main_arg0)
        ∗ ((c.tc : Thread nD τ).loc main_v0 ↦{fullShare} V m c main_v0))
  iintro ⟨Ha, Hv⟩
  ihave H := (pointsTo_share (PosShare.mem_left_op_right fullShare)).1 $$ Ha
  icases H with ⟨Hl, Hr⟩
  isplitl [Hl]; · iexact Hl
  isplitl [Hr]; · iexact Hr
  iexact Hv

/-! ## The run -/

/-- Between points the kernel keeps nothing: the invariant is the core's idle scoped buffers, at every point. -/
theorem Phi_eq (c : Dev nD) (t : Fin (cfg0.N + 1)) :
    (dats m 0 c).Φ t = Pipeline.scopedRest (Ix := Unit) (Name := ℕ) (U := UR sig nD τ) (Lvl := ℕ) (Val := Elt F) spec0 c := rfl

set_option backward.isDefEq.respectTransparency.types false in
/-- From any memory with every semaphore at zero, every weakly fair execution of @main ends without a fault, and at
    the end each window's array holds what the pipeline rule computes from the proof data: an input array its
    contents at entry, the result array those overwritten by the tile each point wrote back. -/
theorem run_main :
    θ_run defs (onTc (τ := τ) (main (F := F))) ⟨m, fun _ => 0, ρ⟩
      (fun r => ∀ c : Dev nD, ∀ w, r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := split m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [Phi_eq m c 0]; iintro ⟨-, H⟩; iexact H)
    (hout := fun c => by rw [Phi_eq m c (Fin.last _)]; iintro H; isplitr; · iempintro
                         iexact H)
    (QY := fun _ _ => True)
    (hY := fun c s' => by iintro ⟨-, -, HSI⟩; imodintro; isplitr; · ipureintro; trivial
                          iexact HSI)
    (hQ := fun s h c w => (h c).1 w)

/-- The frame: the run ends with the feature array as launched (an input array is never written). -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans ((dats m 0 c).arrAt_in 0 rfl _)).trans (A_eq m c 0)) (run_main m ρ)

/-- The run with the result array named: it ends at what the write-backs of all 128 points left in it, the feature
    array as launched. -/
theorem run_result :
    θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun _ h c => ⟨h c 2, ((h c 0).trans ((dats m 0 c).arrAt_in 0 rfl _)).trans (A_eq m c 0)⟩) (run_main m ρ)

end Cert.KernelIdeal.Tiles

end
-- ==== Proof.Distance.lean ====
/-
  The negative Euclidean distance matrix of the rows of a feature array, on the extended reals.

  For rows u, v (1024 entries each) the entry is
      -(sqrt (max ((|u|² + |v|²) - 2 · ⟨u, v⟩) 0)),    |u|² = Σ_k u_k²,  ⟨u, v⟩ = Σ_k u_k · v_k,
  the expansion of |u - v|² clamped below at zero before the root.  Both programs compute it in this very form,
  with the same two literals (2.0 and 0.0), so no law of the extended reals beyond 0 + x = x and 0 - x = -x is
  needed to join them, and nothing is asked of the inputs.
-/
import Idealize.ShloMosaic.Lib.ValueIdx
import Idealize.ShloMosaic.PureOps.Ideal.Laws

noncomputable section

namespace Cert.Distance

open Idealize.ShloMosaic Idealize.ShloMosaic.ValueIdx

/-- The pointwise tail as the kernel spells it: from the two squared norms r, c and the inner product g of an entry's
    two rows, with the literals 0.0 and 2.0 as their f32 words. -/
def entryOf (r c g : EReal) : EReal :=
  Ideal.ofBits .f32 0x00000000#32 - Ideal.sqrt (max ((r + c) - Ideal.ofBits .f32 0x40000000#32 * g) (Ideal.ofBits .f32 0x00000000#32))

/-- The entry for two rows u, v. -/
def rowsEntry (u v : Fin 1024 → EReal) : EReal :=
  entryOf (∑ k, u k * u k) (∑ k, v k * v k) (∑ k, u k * v k)

/-- The whole matrix: entry (r, s) from rows r and s of the feature array. -/
def dist (x : (⟨2, ![8192, 1024]⟩ : Shape).Idx → EReal) : (⟨2, ![8192, 8192]⟩ : Shape).Idx → EReal :=
  fun i => rowsEntry (fun k => x (ix2 (i 0) k)) (fun k => x (ix2 (i 1) k))

/-- The same tail as the reference spells it: the sums started from the word 0.0, the root negated. -/
theorem entryOf_eq_neg (r c g : EReal) :
    entryOf r c g
      = -(Ideal.sqrt (max (((Ideal.ofBits .f32 0x00000000#32 + r) + (Ideal.ofBits .f32 0x00000000#32 + c))
            - Ideal.ofBits .f32 0x40000000#32 * g) (Ideal.ofBits .f32 0x00000000#32))) := by
  unfold entryOf
  rw [Ideal.ofBits_zero_f32, zero_add, zero_add, zero_sub]

end Cert.Distance

end
-- ==== Proof.TileValue.lean ====
/-
  The tile the body stores, read at an entry, at the ideal instance.

  With a the 1024 × 1024 block of rows and b the 512 × 1024 block of rows the body is handed, the entry (p, q) of the
  stored tile is
      0 - sqrt (max ((Σ_k a[p,k]² + Σ_k b[q,k]²) - 2 · Σ_k a[p,k] · b[q,k]) 0):
  the lane sums of the squared blocks, the first kept as a column and spread along the rows' tile axis, the second
  kept as a column, transposed to a row and spread down the columns; the matrix product of a with b transposed into a
  zero accumulator (the narrowing to bf16 before it is the identity on ideal values); then pointwise arithmetic.
-/
import proofs.«141768_j41790031790867_1_alg».proof.Proof.Gen.KernelIdeal.Skeleton
import proofs.«141768_j41790031790867_1_alg».proof.Proof.Distance
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx

variable {α : Type}

/-! ## The layout steps at an entry -/

/-- A vector kept as a column: entry (i, u) of the column is entry i of the vector. -/
theorem column_at {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column spread along a second axis: entry (p, c) is the column's entry p. -/
theorem spread_column_at {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of an a × n array of ideal values, at row i. -/
theorem lane_sum_at {a n : ℕ} (u : FVec Ideal ⟨2, ![a, n]⟩ .f32) (h : (⟨2, ![a, n]⟩ : Shape).Reduces [1] ⟨1, ![a]⟩)
    (hφ : FKind.Formats .f32) (hacc : (0x00000000#32 : BitVec 32) = FKind.add.neutral .f32 hφ) (i : Fin a) :
    multiReduction .add [1] ⟨1, ![a]⟩ u 0x00000000#32 h hφ hacc (ix1 i) = ∑ k : Fin n, u (ix2 i k) := by
  refine (Ideal.multiReduction_add_single u _ h hφ hacc (ix1 i)).trans ?_
  refine Finset.sum_congr rfl fun k _ => congrArg u (funext fun ax => Fin.ext ?_)
  match ax with
  | ⟨0, _⟩ => rfl
  | ⟨1, _⟩ => rfl

/-! ## The two norms at an entry of the tile -/

/-- Lane sums of a 1024 × n array kept as a column and spread over the tile: entry (p, q) is row p's sum. -/
theorem row_norm_at (u : FVec Ideal S1024x1024 .f32) (hred : S1024x1024.Reduces [1] S1024)
    (hφ : FKind.Formats .f32) (hacc : (0x00000000#32 : BitVec 32) = FKind.add.neutral .f32 hφ)
    (hsc : S1024.ShapeCasts S1024x1) (hb : S1024x1.Broadcasts S1024x512) (p : Fin 1024) (q : Fin 512) :
    broadcastTo S1024x512 (shapeCast S1024x1 (multiReduction .add [1] S1024 u 0x00000000#32 hred hφ hacc) hsc) hb (ix2 p q)
      = ∑ k : Fin 1024, u (ix2 p k) :=
  (spread_column_at _ hb p q).trans ((column_at _ hsc p 0).trans (lane_sum_at u hred hφ hacc p))

/-- Lane sums of a 512 × n array kept as a column, turned into a row and spread down the tile: entry (p, q) is row
    q's sum. -/
theorem col_norm_at (w : FVec Ideal S512x1024 .f32) (hred : S512x1024.Reduces [1] S512)
    (hφ : FKind.Formats .f32) (hacc : (0x00000000#32 : BitVec 32) = FKind.add.neutral .f32 hφ)
    (hsc : S512.ShapeCasts S512x1) (ht : S512x1.Transposes [1, 0] S1x512) (hb : S1x512.Broadcasts S1024x512)
    (p : Fin 1024) (q : Fin 512) :
    broadcastTo S1024x512 (transpose S1x512 [1, 0] (shapeCast S512x1 (multiReduction .add [1] S512 w 0x00000000#32 hred hφ hacc) hsc) ht) hb (ix2 p q)
      = ∑ k : Fin 1024, w (ix2 q k) :=
  (broadcastTo_1b_ab_apply _ hb p q).trans ((transpose_ix2_apply _ ht 0 q).trans ((column_at _ hsc q 0).trans (lane_sum_at w hred hφ hacc q)))

/-! ## The matrix product at an entry -/

theorem lhs_row (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_lane (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_lane (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_col (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product of a with the transpose of b, accumulated into zero: entry (p, q) is the inner product of row p of a
    with row q of b. -/
theorem gram_at {φ : FTy} (a : FVec Ideal S1024x1024 φ) (b : FVec Ideal S512x1024 φ) (ht : S512x1024.Transposes [1, 0] S1024x512)
    (p : Fin 1024) (q : Fin 512) :
    matmul dot_S1024x1024_S1024x512_S1024x512_1_0_0_1_n_n none a (transpose S1024x512 [1, 0] b ht) (constant S1024x512 .f32 0x00000000#32) (ix2 p q)
      = ∑ k : Fin 1024, a (ix2 p k) * b (ix2 q k) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun ax => Fin.ext (by
    match ax with
    | ⟨0, _⟩ => exact lhs_row _ _
    | ⟨1, _⟩ => exact (lhs_lane _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun ax => Fin.ext (by
    match ax with
    | ⟨0, _⟩ => exact (rhs_lane _ _).trans hk
    | ⟨1, _⟩ => exact rhs_col _ _)
  rw [el, er, transpose_ix2_apply]

/-! ## The stored tile at an entry -/

theorem pay_at (a : Vec Ideal S1024x1024 .f32) (b : Vec Ideal S512x1024 .f32) (p : Fin 1024) (q : Fin 512) :
    k0_pay1 (F := Ideal) a b (ix2 p q) = Cert.Distance.rowsEntry (fun k => a (ix2 p k)) (fun k => b (ix2 q k)) := by
  unfold k0_pay1 Cert.Distance.rowsEntry
  show Cert.Distance.entryOf _ _ _ = Cert.Distance.entryOf _ _ _
  refine congr (congr (congrArg Cert.Distance.entryOf ?_) ?_) ?_
  · exact row_norm_at (mulf a a) _ _ _ _ _ p q
  · exact col_norm_at (mulf b b) _ _ _ _ _ _ p q
  · exact gram_at (truncf .bf16 a bitsLt_bf16_f32) (truncf .bf16 b bitsLt_bf16_f32) _ p q

end Cert.KernelIdeal.TileValue

end
-- ==== Proof.KernelValue.lean ====
/-
  What the kernel leaves in the result array, at the ideal instance: the distance function of the feature array.

  The grid point t = 16 · i + j stages the row block i (1024 rows) and the row block j (512 rows) of the one
  feature array x and writes back tile (i, j).  Entry (p, q) of that tile is the distance entry of rows 1024 i + p
  and 512 j + q of x (the stored payload read at an entry, each block's row read where the block sits in the array),
  which is entry (1024 i + p, 512 j + q) of `dist x`: so what point t writes back is block t of `dist x`.  The 128
  tiles cover the result array (the tile of entry (r, s) is the one of point 16 · (r / 1024) + s / 512), so the array
  ends as `dist x`.
-/
import proofs.«141768_j41790031790867_1_alg».proof.Proof.SharedRun
import proofs.«141768_j41790031790867_1_alg».proof.Proof.TileValue

set_option maxRecDepth 16384

noncomputable section

namespace Cert.KernelIdeal.Tiles

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem origin : (![0, 0] : Fin 2 → Nat) = fun _ => 0 := funext fun a => by fin_cases a <;> rfl

/-- The printed index maps over the grid: point t is handed row block t / 16 and row block t % 16, whole rows, and
    writes tile (t / 16, t % 16). -/
theorem blocks_of_point : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = t.val % 16 :=
  (by decide +kernel : ∀ t : Fin grid0.N, _)

/-- What point t writes back is block t of the distance function of the feature array. -/
theorem wrote_eq (c : Dev nD) (t : Fin cfg0.N) :
    (dats m 0 c).flushed 2 t
      = ((cfg0.win 2).blk t).view.read (Elt Ideal) (Cert.Distance.dist (V m c main_arg0)) := by
  show (cfg0.win 2).cut (grid0.coords t) ((dats m 0 c).after 2 t) = _
  rw [after_tile]
  unfold tile
  rw [View.canon_unit_zero origin]
  simp only [View.ld_unit_zero (S := S1024x1024) origin, View.ld_unit_zero (S := S512x1024) origin]
  obtain ⟨r0, r1, c0, c1, o0, o1⟩ := blocks_of_point t
  funext y
  obtain ⟨p, q, rfl⟩ : ∃ (p : Fin 1024) (q : Fin 512), y = ix2 p q := ⟨y 0, y 1, eq_ix2 y⟩
  show k0_pay1 (F := Ideal) (blockAt m c 0 t) (blockAt m c 1 t) (ix2 p q)
      = Cert.Distance.dist (V m c main_arg0) (((cfg0.win 2).blk t).view.emb (ix2 p q))
  rw [TileValue.pay_at]
  unfold Cert.Distance.dist
  have hrow : ∀ k : Fin 1024, blockAt m c 0 t (ix2 p k)
      = V m c main_arg0 (ix2 ((((cfg0.win 2).blk t).view.emb (ix2 p q)) 0) k) := fun k => by
    show V m c main_arg0 (((cfg0.win 0).blk t).view.emb (ix2 p k)) = _
    refine congrArg (V m c main_arg0) (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 1024 + 1 * k.val = k.val; omega
  have hcol : ∀ k : Fin 1024, blockAt m c 1 t (ix2 q k)
      = V m c main_arg0 (ix2 ((((cfg0.win 2).blk t).view.emb (ix2 p q)) 1) k) := fun k => by
    show V m c main_arg0 (((cfg0.win 1).blk t).view.emb (ix2 q k)) = _
    refine congrArg (V m c main_arg0) (funext fun a => Fin.ext ?_)
    match a with
    | ⟨0, _⟩ => show win0_1.index t (0 : Fin 2) * 512 + 1 * q.val = win0_2.index t (1 : Fin 2) * 512 + 1 * q.val; omega
    | ⟨1, _⟩ => show win0_1.index t (1 : Fin 2) * 1024 + 1 * k.val = k.val; omega
  exact congr (congrArg Cert.Distance.rowsEntry (funext hrow)) (funext hcol)

/-! ## The tiles cover the result array -/

/-- An entry of the result array lies in point t's tile iff each coordinate lies in the tile's range on its axis. -/
theorem mem_tile (t : Fin cfg0.N) (i : S8192x8192.Idx) :
    i ∈ ((cfg0.win 2).blk t).view.set
      ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- Entry (r, s) lies in the tile of the point 16 · (r / 1024) + s / 512, which writes its tile back. -/
theorem tiles_cover (i : S8192x8192.Idx) :
    ∃ t : Fin cfg0.N, (cfg0.win 2).flush t = true ∧ i ∈ ((cfg0.win 2).blk t).view.set := by
  have h0 : (i 0).val < 8192 := (i 0).isLt
  have h1 : (i 1).val < 8192 := (i 1).isLt
  have hN : cfg0.N = 128 := N_0
  obtain ⟨t, ht⟩ : ∃ t : Fin cfg0.N, t.val = (i 0).val / 1024 * 16 + (i 1).val / 512 :=
    ⟨⟨(i 0).val / 1024 * 16 + (i 1).val / 512, by rw [hN]; omega⟩, rfl⟩
  obtain ⟨-, -, -, -, o0, o1⟩ := blocks_of_point t
  refine ⟨t, flush0_2 t, ?_⟩
  rw [mem_tile]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-! ## The result array after the run -/

theorem result_array (c : Dev nD) : (dats m 0 c).arrAt 2 cfg0.N = Cert.Distance.dist (V m c main_arg0) :=
  (dats m 0 c).arrAt_eq_of_cover 2 (Cert.Distance.dist (V m c main_arg0)) (fun t _ => wrote_eq m c t) tiles_cover

/-- The kernel's run at the ideal instance: every weakly fair execution ends with the result array at the distance
    function of the feature array as launched, and the feature array unchanged. -/
theorem run :
    θ_run defs (onTc (τ := τ) (main (F := Ideal))) ⟨m, fun _ => 0, ρ⟩ (fun r => ∀ c : Dev nD,
      r.2.mem ((c.tc : Thread nD τ).loc main_v0) = Cert.Distance.dist (m ((c.tc : Thread nD τ).loc main_arg0))
      ∧ r.2.mem ((c.tc : Thread nD τ).loc main_arg0) = m ((c.tc : Thread nD τ).loc main_arg0)) :=
  (θ_run defs _ _).mono (fun _ h c => ⟨(h c).1.trans (result_array m c), (h c).2⟩) (run_result m ρ)

end Cert.KernelIdeal.Tiles

end
-- ==== Proof.RefValue.lean ====
/-
  The reference computes the distance function.

  Read one host operation at a time (the generated stage lemmas), entry i = (r, s) of the reference's result is
      -(sqrt (max (((0 + Σ_k x[r,k]²) + (0 + Σ_k x[s,k]²)) - 2 · Σ_k x[r,k] · xᵀ[k,s]) 0)):
  the row sums started from the constant 0.0 and spread as a column and as a row, the `dot_general` against the
  transposed array, then pointwise arithmetic.  That is `Cert.Distance.dist x i` once the composed index maps are
  read as (r, k), (s, k).
-/
import proofs.«141768_j41790031790867_1_alg».proof.Proof.Gen.ReferenceIdeal.Run
import proofs.«141768_j41790031790867_1_alg».proof.Proof.Gen.ReferenceIdeal.Read
import proofs.«141768_j41790031790867_1_alg».proof.Proof.Distance

noncomputable section

namespace Cert.ReferenceIdeal.RefValue

open Cert.ReferenceIdeal Cert.ReferenceIdeal.Gen Cert.ReferenceIdeal.Read
open Idealize.ShloMosaic Idealize.ShloMosaic.ValueIdx

/-- The column of row sums read through the two broadcasts lands on row r of the array. -/
theorem row_index (i : S8192x8192.Idx) (k : Fin 1024) :
    idx_main_v1 (idx_main_v4 (idx_main_v6 i)) k = ix2 (i 0) k :=
  funext fun a => Fin.ext (by match a with | ⟨0, _⟩ => rfl | ⟨1, _⟩ => rfl)

/-- The row of row sums read through the two broadcasts lands on row s of the array. -/
theorem col_index (i : S8192x8192.Idx) (k : Fin 1024) :
    idx_main_v1 (idx_main_v5 (idx_main_v7 i)) k = ix2 (i 1) k :=
  funext fun a => Fin.ext (by match a with | ⟨0, _⟩ => rfl | ⟨1, _⟩ => rfl)

theorem lhs_index (i : S8192x8192.Idx) (k : Fin 1024) : lidx_main_v3 i k = ix2 (i 0) k :=
  funext fun a => Fin.ext (by match a with | ⟨0, _⟩ => rfl | ⟨1, _⟩ => rfl)

/-- The transposed operand at (k, s) is the array at (s, k). -/
theorem rhs_index (i : S8192x8192.Idx) (k : Fin 1024) : idx_main_v2 (ridx_main_v3 i k) = ix2 (i 1) k :=
  funext fun a => Fin.ext (by match a with | ⟨0, _⟩ => rfl | ⟨1, _⟩ => rfl)

/-- The reference's result, entry by entry, is the distance function of the feature array. -/
theorem result_eq (x : (⟨S8192x1024, .f32⟩ : BufTy).Contents (Elt Ideal)) :
    val_main_v15 (F := Ideal) x = Cert.Distance.dist x := by
  funext i
  unfold Cert.Distance.dist Cert.Distance.rowsEntry
  rw [Cert.Distance.entryOf_eq_neg]
  rw [val_main_v15_apply, val_main_v14_apply, val_main_v13_apply, val_main_v11_apply, val_main_v8_apply,
    val_main_v6_apply, val_main_v4_apply, val_main_v1_apply, val_main_v7_apply, val_main_v5_apply, val_main_v1_apply,
    val_main_v10_apply, val_main_v9_apply, val_main_v3_apply, val_main_v12_apply]
  simp only [val_main_v0_apply, val_main_v2_apply, val_main_cst_apply, val_main_cst_0_apply, val_main_cst_1_apply,
    row_index, col_index, lhs_index, rhs_index]
  rfl

end Cert.ReferenceIdeal.RefValue

end
-- ==== Proof.lean ====
/-
  The pairwise negative Euclidean distance of the 8192 rows of a feature array x (1024 features each): the kernel
  against the reference, over the extended reals.

  Both programs compute, at entry (r, s),
      -(sqrt (max ((|x_r|² + |x_s|²) - 2 · ⟨x_r, x_s⟩) 0)).
  The reference does so on the whole array.  The kernel does so tile by tile on an 8 × 16 grid: the point (i, j)
  stages row block i (1024 rows) and row block j (512 rows) of the SAME array through two input windows and writes
  tile (i, j) of the result; before the matrix product it narrows both blocks to bf16, which at the ideal instance is
  the identity, and it negates by subtracting from 0.0.  So at the ideal instance the two results are one function of
  x, entry by entry (`Cert.Distance.dist`), with no law beyond 0 + a = a and 0 - a = -a; the finiteness of the input
  is never used.

  The frames.  Because two windows stage one array, each holds the array at half the full share; the launch's whole
  array is cut along the share at the region's entry and the halves rejoin at its exit (Proof/Tiles.lean: the body's
  triple; Proof/SharedRun.lean: the proof data, the split and the run; the same text read at the word level for the
  kernel as printed).  The reference is host operations only; its frame is its run with the result dropped.
  Nothing was rewritten by the ideal pass, so `preserves` has nothing to state.
-/
import proofs.«141768_j41790031790867_1_alg».proof.Defs
import proofs.«141768_j41790031790867_1_alg».proof.Proof.Gen.Kernel
import proofs.«141768_j41790031790867_1_alg».proof.Proof.Gen.KernelIdeal
import proofs.«141768_j41790031790867_1_alg».proof.Proof.Gen.ReferenceIdeal
import proofs.«141768_j41790031790867_1_alg».proof.Proof.Gen.Pre_finite_inputs
import proofs.«141768_j41790031790867_1_alg».proof.Proof.SharedRunBits
import proofs.«141768_j41790031790867_1_alg».proof.Proof.KernelValue
import proofs.«141768_j41790031790867_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to its end and leaves the feature array as launched. -/
theorem frame_kernel : Cert.frame_Kernel := fun m ρ _ => Cert.Kernel.Tiles.frame m ρ

/-- So does its reading at the ideal instance. -/
theorem frame_kernel_ideal : Cert.frame_KernelIdeal := fun m ρ _ => Cert.KernelIdeal.Tiles.frame m ρ

/-- The reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the feature array, both runs end with the result at the distance function of that
    array: the kernel's by its tiles covering the result array, the reference's operation by operation. -/
theorem algebraic : Cert.algebraic_KernelIdeal_ReferenceIdeal := by
  intro m ρ m' ρ' _ hagree
  refine ⟨fun c => Cert.Distance.dist (m ((c.tc : Thread Cert.KernelIdeal.nD Cert.KernelIdeal.τ).loc Cert.KernelIdeal.main_arg0)),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
